-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x256 : Shape := ⟨3, ![64, 256, 256]⟩
abbrev S64 : Shape := ⟨1, ![64]⟩
abbrev S4864x256 : Shape := ⟨2, ![4864, 256]⟩
abbrev S4864 : Shape := ⟨1, ![4864]⟩
abbrev S_ : Shape := ⟨0, ![]⟩

class Facts : Prop where
  bcast_S_S64x256x256 : S_.BroadcastsInDim S64x256x256 (![] : Fin 0 → Fin S64x256x256.rank)
  reducesTo_S64x256x256_S_d0_1_2 : S64x256x256.ReducesTo [0, 1, 2] S_
  h_S_ : 0 < S_.numel
  bcast_S_S4864x256 : S_.BroadcastsInDim S4864x256 (![] : Fin 0 → Fin S4864x256.rank)
  reducesTo_S4864x256_S_d0_1 : S4864x256.ReducesTo [0, 1] S_

variable [Facts]

def fn {F : FTy → Type} [FloatOps F] (main_arg0 : FVec F S64x256x256 .f32) (main_arg1 : IVec S64 32) (main_arg2 : FVec F S4864x256 .f32) (main_arg3 : IVec S4864 32) : IVec S_ 1 :=
  let main_v0 : FVec F S64x256x256 .f32 := Host.absf main_arg0
  let main_cst : FVec F S_ .f32 := constant S_ .f32 0x7F800000#32
  let main_v1 : FVec F S64x256x256 .f32 := broadcastInDim S64x256x256 ![] bcast_S_S64x256x256 main_cst
  let main_v2 : IVec S64x256x256 1 := cmpf .olt main_v0 main_v1
  let main_c : IVec S_ 1 := constantI S_ 1 1#1
  let main_v3 : IVec S_ 1 := (fun x v => Host.reduce IntOp.andi x v reducesTo_S64x256x256_S_d0_1_2 h_S_) main_v2 main_c
  let main_v4 : FVec F S4864x256 .f32 := Host.absf main_arg2
  let main_cst_0 : FVec F S_ .f32 := constant S_ .f32 0x7F800000#32
  let main_v5 : FVec F S4864x256 .f32 := broadcastInDim S4864x256 ![] bcast_S_S4864x256 main_cst_0
  let main_v6 : IVec S4864x256 1 := cmpf .olt main_v4 main_v5
  let main_c_1 : IVec S_ 1 := constantI S_ 1 1#1
  let main_v7 : IVec S_ 1 := (fun x v => Host.reduce IntOp.andi x v reducesTo_S4864x256_S_d0_1 h_S_) main_v6 main_c_1
  let main_v8 : IVec S_ 1 := andi main_v3 main_v7
  main_v8
-- ==== Kernel.lean ====
abbrev S64x256x256 : Shape := ⟨3, ![64, 256, 256]⟩
abbrev S64 : Shape := ⟨1, ![64]⟩
abbrev S4864x256 : Shape := ⟨2, ![4864, 256]⟩
abbrev S4864 : Shape := ⟨1, ![4864]⟩
abbrev S_ : Shape := ⟨0, ![]⟩
abbrev S64x256 : Shape := ⟨2, ![64, 256]⟩
abbrev S64x256x1 : Shape := ⟨3, ![64, 256, 1]⟩
abbrev S256x64x256 : Shape := ⟨3, ![256, 64, 256]⟩
abbrev S16384x256 : Shape := ⟨2, ![16384, 256]⟩
abbrev S1x64 : Shape := ⟨2, ![1, 64]⟩
abbrev S256x64 : Shape := ⟨2, ![256, 64]⟩
abbrev S16384 : Shape := ⟨1, ![16384]⟩
abbrev S16384x1 : Shape := ⟨2, ![16384, 1]⟩
abbrev S1x4864 : Shape := ⟨2, ![1, 4864]⟩
abbrev S128x256 : Shape := ⟨2, ![128, 256]⟩
abbrev S128x1 : Shape := ⟨2, ![128, 1]⟩
abbrev S256x4864 : Shape := ⟨2, ![256, 4864]⟩
abbrev S128x4864 : Shape := ⟨2, ![128, 4864]⟩
abbrev S128 : Shape := ⟨1, ![128]⟩

abbrev nBuf : Space → Nat
  | .hbm => 27
  | .vmem => 8
  | .smem => 0
  | _ => 0

abbrev bufTy : (tb : Table) → Fin (tcTables nBuf tb) → BufTy
  | .hbm, ⟨0, _⟩ => ⟨S64x256x256, .f32⟩
  | .hbm, ⟨1, _⟩ => ⟨S64, .i32⟩
  | .hbm, ⟨2, _⟩ => ⟨S4864x256, .f32⟩
  | .hbm, ⟨3, _⟩ => ⟨S4864, .i32⟩
  | .hbm, ⟨4, _⟩ => ⟨S64x256x256, .f32⟩
  | .hbm, ⟨5, _⟩ => ⟨S_, .f32⟩
  | .hbm, ⟨6, _⟩ => ⟨S64x256, .f32⟩
  | .hbm, ⟨7, _⟩ => ⟨S64x256x1, .f32⟩
  | .hbm, ⟨8, _⟩ => ⟨S64x256x1, .f32⟩
  | .hbm, ⟨9, _⟩ => ⟨S_, .f32⟩
  | .hbm, ⟨10, _⟩ => ⟨S_, .f32⟩
  | .hbm, ⟨11, _⟩ => ⟨S64x256x1, .f32⟩
  | .hbm, ⟨12, _⟩ => ⟨S64x256x1, .f32⟩
  | .hbm, ⟨13, _⟩ => ⟨S64x256x256, .f32⟩
  | .hbm, ⟨14, _⟩ => ⟨S64x256x256, .f32⟩
  | .hbm, ⟨15, _⟩ => ⟨S256x64x256, .f32⟩
  | .hbm, ⟨16, _⟩ => ⟨S16384x256, .f32⟩
  | .hbm, ⟨17, _⟩ => ⟨S1x64, .i32⟩
  | .hbm, ⟨18, _⟩ => ⟨S256x64, .i32⟩
  | .hbm, ⟨19, _⟩ => ⟨S16384, .i32⟩
  | .hbm, ⟨20, _⟩ => ⟨S16384x1, .i32⟩
  | .hbm, ⟨21, _⟩ => ⟨S1x4864, .i32⟩
  | .hbm, ⟨22, _⟩ => ⟨S16384x1, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S128x256, .f32⟩
  | .local _ .vmem, ⟨1, _⟩ => ⟨S128x256, .f32⟩
  | .local _ .vmem, ⟨2, _⟩ => ⟨S4864x256, .f32⟩
  | .local _ .vmem, ⟨3, _⟩ => ⟨S128x1, .i32⟩
  | .local _ .vmem, ⟨4, _⟩ => ⟨S128x1, .i32⟩
  | .local _ .vmem, ⟨5, _⟩ => ⟨S1x4864, .i32⟩
  | .local _ .vmem, ⟨6, _⟩ => ⟨S128x1, .f32⟩
  | .local _ .vmem, ⟨7, _⟩ => ⟨S128x1, .f32⟩
  | _, _ => ⟨S64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_call1_v0 : Ref sig .tc := ⟨.hbm, 10, rfl⟩
abbrev main_call1_v1 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4864x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4864 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S64x256x256_S64x256_d2 : S64x256x256.ReducesTo [2] S64x256
  h_S_ : 0 < S_.numel
  bcast_S64x256_S64x256x1_0_1 : S64x256.BroadcastsInDim S64x256x1 (![0, 1] : Fin 2 → Fin S64x256x1.rank)
  bcast_S_S64x256x1 : S_.BroadcastsInDim S64x256x1 (![] : Fin 0 → Fin S64x256x1.rank)
  bcast_S64x256x1_S64x256x256_0_1_2 : S64x256x1.BroadcastsInDim S64x256x256 (![0, 1, 2] : Fin 3 → Fin S64x256x256.rank)
  transposes_S64x256x256_S256x64x256_1_0_2 : S64x256x256.Transposes [1, 0, 2] S256x64x256
  shapeCasts_S256x64x256_S16384x256 : S256x64x256.ShapeCasts S16384x256
  shapeCasts_S64_S1x64 : S64.ShapeCasts S1x64
  bcast_S1x64_S256x64_0_1 : S1x64.BroadcastsInDim S256x64 (![0, 1] : Fin 2 → Fin S256x64.rank)
  shapeCasts_S256x64_S16384 : S256x64.ShapeCasts S16384
  shapeCasts_S16384_S16384x1 : S16384.ShapeCasts S16384x1
  shapeCasts_S4864_S1x4864 : S4864.ShapeCasts S1x4864
  inb_S128x256_S128x256_0_0 : ∀ a, (![0, 0] : Fin 2 → Nat) a + S128x256.size a ≤ S128x256.size a
  h_S128x256 : 0 < S128x256.numel
  shapeCasts_S128x256_S128x256 : S128x256.ShapeCasts S128x256
  bitsLt_bf16_f32 : FTy.bits .bf16 < FTy.bits .f32
  inb_S4864x256_S4864x256_0_0 : ∀ a, (![0, 0] : Fin 2 → Nat) a + S4864x256.size a ≤ S4864x256.size a
  h_S4864x256 : 0 < S4864x256.numel
  transposes_S4864x256_p1_0_S256x4864 : S4864x256.Transposes [1, 0] S256x4864
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x4864_S1x4864_0_0 : ∀ a, (![0, 0] : Fin 2 → Nat) a + S1x4864.size a ≤ S1x4864.size a
  h_S1x4864 : 0 < S1x4864.numel
  shapeCasts_S1x4864_S1x4864 : S1x4864.ShapeCasts S1x4864
  broadcasts_S128x1_S128x4864 : S128x1.Broadcasts S128x4864
  broadcasts_S1x4864_S128x4864 : S1x4864.Broadcasts S128x4864
  natLt_1_32 : 1 < 32
  reduces_S128x4864_S128 : S128x4864.Reduces [1] S128
  shapeCasts_S128_S128x1 : S128.ShapeCasts S128x1
  reducesTo_S16384x1_S_d0_1 : S16384x1.ReducesTo [0, 1] S_
  dot_S128x256_S256x4864_S128x4864_1_0_0_1_n_n_wf : DotDims.WF S128x256 S256x4864 S128x4864 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S16384x256.size a
  hwx0_0 : ∀ i : grid0.Coords, EltTy.bits .f32 = 32 ∨ (Rect.block (s := S16384x256) S128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4864x256.size a ≤ S4864x256.size a
  hwx0_1 : ∀ i : grid0.Coords, EltTy.bits .f32 = 32 ∨ (Rect.block (s := S4864x256) S4864x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S16384x1.size a
  hwx0_2 : ∀ i : grid0.Coords, EltTy.bits .i32 = 32 ∨ (Rect.block (s := S16384x1) S128x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4864.size a ≤ S1x4864.size a
  hwx0_3 : ∀ i : grid0.Coords, EltTy.bits .i32 = 32 ∨ (Rect.block (s := S1x4864) S1x4864.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S16384x1.size a
  hwx0_4 : ∀ i : grid0.Coords, EltTy.bits .f32 = 32 ∨ (Rect.block (s := S16384x1) S128x1.size (cc0_transform_4 i) (hinb0_4 i)).WholeWords (EltTy.packing .f32)

variable [Facts₀]

def dot_S128x256_S256x4864_S128x4864_1_0_0_1_n_n : DotDims S128x256 S256x4864 S128x4864 where
  lhsContracting := [1]
  rhsContracting := [0]
  lhsNonContracting := [0]
  rhsNonContracting := [1]
  lhsBatch := []
  rhsBatch := []
  wf := dot_S128x256_S256x4864_S128x4864_1_0_0_1_n_n_wf

abbrev win0_0 : Pipeline.Window sig grid0 :=
  Pipeline.Window.ofSpec (Memref.whole main_v5) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4864x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x4864.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S128x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x256x256 : Shape := ⟨3, ![64, 256, 256]⟩
abbrev S64 : Shape := ⟨1, ![64]⟩
abbrev S4864x256 : Shape := ⟨2, ![4864, 256]⟩
abbrev S4864 : Shape := ⟨1, ![4864]⟩
abbrev S_ : Shape := ⟨0, ![]⟩
abbrev S64x256 : Shape := ⟨2, ![64, 256]⟩
abbrev S64x256x1 : Shape := ⟨3, ![64, 256, 1]⟩
abbrev S256x64x256 : Shape := ⟨3, ![256, 64, 256]⟩
abbrev S16384x256 : Shape := ⟨2, ![16384, 256]⟩
abbrev S64x1 : Shape := ⟨2, ![64, 1]⟩
abbrev S1x4864 : Shape := ⟨2, ![1, 4864]⟩
abbrev S64x4864 : Shape := ⟨2, ![64, 4864]⟩
abbrev S1x64x1x4864 : Shape := ⟨4, ![1, 64, 1, 4864]⟩
abbrev S256x64x1x4864 : Shape := ⟨4, ![256, 64, 1, 4864]⟩
abbrev S16384x4864 : Shape := ⟨2, ![16384, 4864]⟩
abbrev S256x4864 : Shape := ⟨2, ![256, 4864]⟩
abbrev S16384 : Shape := ⟨1, ![16384]⟩
abbrev S16384x1 : Shape := ⟨2, ![16384, 1]⟩

abbrev nBuf : Space → Nat
  | .hbm => 65
  | .vmem => 0
  | .smem => 0
  | _ => 0

abbrev bufTy : (tb : Table) → Fin (tcTables nBuf tb) → BufTy
  | .hbm, ⟨0, _⟩ => ⟨S64x256x256, .f32⟩
  | .hbm, ⟨1, _⟩ => ⟨S64, .i32⟩
  | .hbm, ⟨2, _⟩ => ⟨S4864x256, .f32⟩
  | .hbm, ⟨3, _⟩ => ⟨S4864, .i32⟩
  | .hbm, ⟨4, _⟩ => ⟨S64x256x256, .f32⟩
  | .hbm, ⟨5, _⟩ => ⟨S_, .f32⟩
  | .hbm, ⟨6, _⟩ => ⟨S64x256, .f32⟩
  | .hbm, ⟨7, _⟩ => ⟨S64x256x1, .f32⟩
  | .hbm, ⟨8, _⟩ => ⟨S64x256x1, .f32⟩
  | .hbm, ⟨9, _⟩ => ⟨S_, .f32⟩
  | .hbm, ⟨10, _⟩ => ⟨S_, .f32⟩
  | .hbm, ⟨11, _⟩ => ⟨S64x256x1, .f32⟩
  | .hbm, ⟨12, _⟩ => ⟨S64x256x1, .f32⟩
  | .hbm, ⟨13, _⟩ => ⟨S64x256x256, .f32⟩
  | .hbm, ⟨14, _⟩ => ⟨S64x256x256, .f32⟩
  | .hbm, ⟨15, _⟩ => ⟨S256x64x256, .f32⟩
  | .hbm, ⟨16, _⟩ => ⟨S16384x256, .f32⟩
  | .hbm, ⟨17, _⟩ => ⟨S64x1, .i32⟩
  | .hbm, ⟨18, _⟩ => ⟨S1x4864, .i32⟩
  | .hbm, ⟨19, _⟩ => ⟨S64x4864, .i32⟩
  | .hbm, ⟨20, _⟩ => ⟨S64x4864, .i32⟩
  | .hbm, ⟨21, _⟩ => ⟨S64x4864, .i1⟩
  | .hbm, ⟨22, _⟩ => ⟨S64x4864, .f32⟩
  | .hbm, ⟨23, _⟩ => ⟨S1x64x1x4864, .f32⟩
  | .hbm, ⟨24, _⟩ => ⟨S256x64x1x4864, .f32⟩
  | .hbm, ⟨25, _⟩ => ⟨S16384x4864, .f32⟩
  | .hbm, ⟨26, _⟩ => ⟨S256x4864, .f32⟩
  | .hbm, ⟨27, _⟩ => ⟨S16384x4864, .f32⟩
  | .hbm, ⟨28, _⟩ => ⟨S_, .f32⟩
  | .hbm, ⟨29, _⟩ => ⟨S16384x4864, .f32⟩
  | .hbm, ⟨30, _⟩ => ⟨S16384x4864, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S16384x4864, .f32⟩
  | .hbm, ⟨35, _⟩ => ⟨S16384x4864, .f32⟩
  | .hbm, ⟨36, _⟩ => ⟨S16384x4864, .f32⟩
  | .hbm, ⟨37, _⟩ => ⟨S_, .f32⟩
  | .hbm, ⟨38, _⟩ => ⟨S16384x4864, .f32⟩
  | .hbm, ⟨39, _⟩ => ⟨S16384x4864, .f32⟩
  | .hbm, ⟨40, _⟩ => ⟨S16384x4864, .f32⟩
  | .hbm, ⟨41, _⟩ => ⟨S16384x4864, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S16384x4864, .f32⟩
  | .hbm, ⟨46, _⟩ => ⟨S16384x4864, .f32⟩
  | .hbm, ⟨47, _⟩ => ⟨S16384x4864, .f32⟩
  | .hbm, ⟨48, _⟩ => ⟨S_, .f32⟩
  | .hbm, ⟨49, _⟩ => ⟨S16384x4864, .f32⟩
  | .hbm, ⟨50, _⟩ => ⟨S16384x4864, .f32⟩
  | .hbm, ⟨51, _⟩ => ⟨S16384x4864, .f32⟩
  | .hbm, ⟨52, _⟩ => ⟨S16384x4864, .f32⟩
  | .hbm, ⟨53, _⟩ => ⟨S_, .f32⟩
  | .hbm, ⟨54, _⟩ => ⟨S16384, .f32⟩
  | .hbm, ⟨55, _⟩ => ⟨S_, .f32⟩
  | .hbm, ⟨56, _⟩ => ⟨S16384, .f32⟩
  | .hbm, ⟨57, _⟩ => ⟨S16384, .f32⟩
  | .hbm, ⟨58, _⟩ => ⟨S_, .f32⟩
  | .hbm, ⟨59, _⟩ => ⟨S16384, .f32⟩
  | .hbm, ⟨60, _⟩ => ⟨S16384, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | _, _ => ⟨S64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_call1_v0 : Ref sig .tc := ⟨.hbm, 10, rfl⟩
abbrev main_call1_v1 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩

abbrev nD : Nat := 1
abbrev τ : Topo := Topo.v7x

variable {F : FTy → Type} [FloatOps F]

class Facts₀ : Prop where
  reducesTo_S64x256x256_S64x256_d2 : S64x256x256.ReducesTo [2] S64x256
  h_S_ : 0 < S_.numel
  bcast_S64x256_S64x256x1_0_1 : S64x256.BroadcastsInDim S64x256x1 (![0, 1] : Fin 2 → Fin S64x256x1.rank)
  bcast_S_S64x256x1 : S_.BroadcastsInDim S64x256x1 (![] : Fin 0 → Fin S64x256x1.rank)
  bcast_S64x256x1_S64x256x256_0_1_2 : S64x256x1.BroadcastsInDim S64x256x256 (![0, 1, 2] : Fin 3 → Fin S64x256x256.rank)
  transposes_S64x256x256_S256x64x256_1_0_2 : S64x256x256.Transposes [1, 0, 2] S256x64x256
  shapeCasts_S256x64x256_S16384x256 : S256x64x256.ShapeCasts S16384x256
  bcast_S64_S64x1_0 : S64.BroadcastsInDim S64x1 (![0] : Fin 1 → Fin S64x1.rank)
  bcast_S4864_S1x4864_1 : S4864.BroadcastsInDim S1x4864 (![1] : Fin 1 → Fin S1x4864.rank)
  bcast_S64x1_S64x4864_0_1 : S64x1.BroadcastsInDim S64x4864 (![0, 1] : Fin 2 → Fin S64x4864.rank)
  bcast_S1x4864_S64x4864_0_1 : S1x4864.BroadcastsInDim S64x4864 (![0, 1] : Fin 2 → Fin S64x4864.rank)
  shapeCasts_S64x4864_S1x64x1x4864 : S64x4864.ShapeCasts S1x64x1x4864
  bcast_S1x64x1x4864_S256x64x1x4864_0_1_2_3 : S1x64x1x4864.BroadcastsInDim S256x64x1x4864 (![0, 1, 2, 3] : Fin 4 → Fin S256x64x1x4864.rank)
  shapeCasts_S256x64x1x4864_S16384x4864 : S256x64x1x4864.ShapeCasts S16384x4864
  transposes_S4864x256_S256x4864_1_0 : S4864x256.Transposes [1, 0] S256x4864
  bcast_S_S16384x4864 : S_.BroadcastsInDim S16384x4864 (![] : Fin 0 → Fin S16384x4864.rank)
  reducesTo_S16384x4864_S16384_d1 : S16384x4864.ReducesTo [1] S16384
  bcast_S16384_S16384x1_0 : S16384.BroadcastsInDim S16384x1 (![0] : Fin 1 → Fin S16384x1.rank)
  bcast_S16384x1_S16384x4864_0_1 : S16384x1.BroadcastsInDim S16384x4864 (![0, 1] : Fin 2 → Fin S16384x4864.rank)
  bcast_S_S16384 : S_.BroadcastsInDim S16384 (![] : Fin 0 → Fin S16384.rank)
  reducesTo_S16384_S_d0 : S16384.ReducesTo [0] S_
  dot_S16384x256_S256x4864_S16384x4864_1_0_0_1_n_n_wf : DotDims.WF S16384x256 S256x4864 S16384x4864 [1] [0] [0] [1] [] []

variable [Facts₀]

def dot_S16384x256_S256x4864_S16384x4864_1_0_0_1_n_n : DotDims S16384x256 S256x4864 S16384x4864 where
  lhsContracting := [1]
  rhsContracting := [0]
  lhsNonContracting := [0]
  rhsNonContracting := [1]
  lhsBatch := []
  rhsBatch := []
  wf := dot_S16384x256_S256x4864_S16384x4864_1_0_0_1_n_n_wf

class Facts : Prop extends Facts₀ where

variable [Facts]
-- ==== Proof.Spec.lean ====
/-
  The supervised-contrastive row loss, as ONE function of a row of logits and a row of 0/1 marks.

  For a row of logits `L` over the 4864 contrast samples and marks `K` (1 where the sample has the
  anchor's label, else 0), with `M = max_n L n` (the fold of `max` from -inf):
      shifted n = L n - M
      neg       = sum_j exp (shifted j * (1 - K j))
      lp n      = shifted n * K n - log (exp (shifted n * K n) + neg + eps)
      rowLoss   = (-1) * ((sum_n lp n) / (sum_n K n)).
  The logits of row `r` are the inner products of the anchor feature row with every contrast row,
  divided by the temperature; the result of the whole computation is the mean of the row losses
  over the 16384 rows. Everything is on the extended reals; the literals are kept as the words
  both programs print (the same word on both sides is never evaluated).
-/
import Idealize.ShloMosaic.PureOps.Ideal
import Idealize.ShloMosaic.PureOps.Ideal.Laws
import Idealize.ShloMosaic.Lib.ValueIdx

noncomputable section

open scoped BigOperators

namespace Cert.Contrast

open Idealize.ShloMosaic Idealize.ShloMosaic.ValueIdx

/-- -inf, the start of a row's maximum. -/
abbrev negInf : EReal := Ideal.ofBits .f32 0xFF800000#32
/-- 1. -/
abbrev one : EReal := Ideal.ofBits .f32 0x3F800000#32
/-- The f32 word of 1e-10, added under the logarithm. -/
abbrev eps : EReal := Ideal.ofBits .f32 0x2EDBE6FF#32
/-- -1. -/
abbrev negOne : EReal := Ideal.ofBits .f32 0xBF800000#32
/-- 16384, the number of rows. -/
abbrev rowCount : EReal := Ideal.ofBits .f32 0x46800000#32
/-- The f32 word of the temperature 0.07, the rational 9395241/134217728. -/
abbrev temp : EReal := Ideal.ofBits .f32 0x3D8F5C29#32

/-- A row's maximum: the fold of `max` from -inf over its 4864 entries. -/
def rowMax (L : Fin 4864 → EReal) : EReal := (Finset.univ : Finset (Fin 4864)).fold max negInf L

/-- The loss of one row from its logits `L` and its marks `K`. -/
def rowLoss (L K : Fin 4864 → EReal) : EReal :=
  negOne * Ideal.div
    (∑ n : Fin 4864, ((L n - rowMax L) * K n
      - Ideal.log (Ideal.exp ((L n - rowMax L) * K n)
          + (∑ j : Fin 4864, Ideal.exp ((L j - rowMax L) * (one - K j))) + eps)))
    (∑ n : Fin 4864, K n)

/-- Two labels compared: 1 if equal, 0 otherwise, as an extended real. -/
def same (a b : BitVec 32) : EReal := (((IntOp.cmpi .eq a b).toNat : ℝ) : EReal)

/-- The loss of row `r`: its logits are the inner products of feature row `r` with each contrast row
    over the temperature, its marks the equality of the row's label with each contrast label. -/
def rowv (A : Fin 16384 → Fin 256 → EReal) (C : Fin 4864 → Fin 256 → EReal)
    (lab : Fin 16384 → BitVec 32) (yc : Fin 4864 → BitVec 32) (r : Fin 16384) : EReal :=
  rowLoss (fun n => Ideal.div (∑ k : Fin 256, A r k * C n k) temp) (fun n => same (lab r) (yc n))

/-- The mean of the row losses over the 16384 rows. -/
def meanLoss (f : Fin 16384 → EReal) : EReal := Ideal.div (∑ r : Fin 16384, f r) rowCount

/-- A one-bit word widened to 32 bits with zeros and read as a signed integer is the bit itself. -/
theorem toInt_setWidth_bit (b : BitVec 1) : ((b.setWidth 32).toInt : ℝ) = (b.toNat : ℝ) := by
  have h : ∀ b : BitVec 1, (b.setWidth 32).toInt = (b.toNat : Int) := by decide
  rw [h b]; simp

/-- The temperature's word denotes 9395241/134217728. -/
theorem temp_eq : temp = ((9395241 / 134217728 : ℝ) : EReal) := by
  simp [temp, Ideal.ofBits, Ideal.ieee, -EReal.coe_mul]; norm_num

/-- Dividing by the temperature is multiplying by its reciprocal 134217728/9395241. -/
theorem div_temp (x : EReal) : Ideal.div x temp = x * ((134217728 / 9395241 : ℝ) : EReal) := by
  rw [temp_eq, Ideal.div_coe (by norm_num : (9395241 / 134217728 : ℝ) ≠ 0)]
  congr 2; norm_num

end Cert.Contrast

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.KernelRow.lean ====
/-
  What one grid point's body leaves in the output block, read at a row: the row loss of that row's
  logits and marks.

  The body's arithmetic, read at row p. The product of the feature block by the transposed contrast
  block, at (p, n), is the inner product of feature row p with contrast row n; times the reciprocal of
  the temperature it is that inner product over the temperature: the logit L n. The label comparison,
  widened and converted, at (p, n) is 1 where the two labels agree and 0 elsewhere: the mark K n. A
  reduction along the columns, kept as a column and spread again over the columns, reads at (p, n)
  the reduction of row p: the maximum is the fold of max from -inf over the row, a sum is the sum over
  the row. Everything between these is elementwise, so the stored entry at (p, 0) is
      (-1) * ((∑ n, lp n) / (∑ n, K n))
  with lp and the shifted logits as the row loss states them.
-/
import proofs.«145868_j65575560675708_1_alg».proof.Proof.Gen.KernelIdeal.Frame
import proofs.«145868_j65575560675708_1_alg».proof.Proof.Spec
import proofs.«145868_j65575560675708_1_alg».proof.Proof.LibDot2
import Idealize.ShloMosaic.Lib.ValueLayout

noncomputable section

open scoped BigOperators

namespace Cert.Contrast.KernelRow

open Idealize.ShloMosaic Idealize.ShloMosaic.ValueIdx Cert.KernelIdeal Cert.Contrast

/-- The named reciprocal of the temperature denotes 134217728/9395241 at the extended reals. -/
theorem inv_temperature :
    Named.named (F := Ideal) Cert.KernelIdeal.κ "inv_temperature" (φ := .f32) 0x41649249#32
      = ((134217728 / 9395241 : ℝ) : EReal) :=
  IdealRules.named_const.ideal_named_scalar _ _ _ _ rfl

/-- The offsets of a whole block are zero on both axes. -/
theorem offsets_zero : (![0, 0] : Fin 2 → Nat) = fun _ => 0 := funext fun a => by fin_cases a <;> rfl

/-! ## Columns: a vector kept as a column, a column spread over the columns -/

section Columns
variable {α : Type}

/-- A vector [a] cast to the column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## The reductions along the columns, read at a row -/

/-- The reduced index p with the column n put back is (p, n). -/
theorem lift_row (p : Fin 128) (n : Fin 4864) :
    Gen.reduces_S128x4864_S128.lift (ix1 p) n = ix2 p n := by
  funext a; apply Fin.ext
  match a with
  | ⟨0, _⟩ => rfl
  | ⟨1, _⟩ => rfl

/-- The maximum along the columns from the word of -inf, read at row p: the fold of max from -inf over the row. -/
theorem rowMax_read (src : FVec Ideal S128x4864 .f32) (hφ : FTy.f32 = FTy.f32 ∨ FTy.f32 = FTy.bf16)
    (hacc : (0xFF800000#32 : BitVec 32) = 0xFF800000#32) (p : Fin 128) :
    multiReduction .maximumf [1] S128 src 0xFF800000#32 Gen.reduces_S128x4864_S128 hφ hacc (ix1 p)
      = rowMax (fun n => src (ix2 p n)) := by
  refine (Ideal.multiReduction_maximumf_single src 0xFF800000#32 Gen.reduces_S128x4864_S128 hφ hacc (ix1 p)).trans ?_
  unfold rowMax
  refine congrArg (fun f => (Finset.univ : Finset (Fin 4864)).fold max negInf f) ?_
  funext n
  exact congrArg src (lift_row p n)

/-- The sum along the columns from the zero word, read at row p: the sum over the row. -/
theorem rowSum_read (src : FVec Ideal S128x4864 .f32) (hφ : FTy.f32 = FTy.f32 ∨ FTy.f32 = FTy.bf16)
    (hacc : (0x00000000#32 : BitVec 32) = 0x00000000#32) (p : Fin 128) :
    multiReduction .add [1] S128 src 0x00000000#32 Gen.reduces_S128x4864_S128 hφ hacc (ix1 p)
      = ∑ n : Fin 4864, src (ix2 p n) := by
  refine (Ideal.multiReduction_add_single src 0x00000000#32 Gen.reduces_S128x4864_S128 hφ hacc (ix1 p)).trans ?_
  exact Finset.sum_congr rfl fun n _ => congrArg src (lift_row p n)

/-! ## The logits and the marks -/

/-- The body's product into the zero block, at (p, n): the inner product of row p of the left operand with
    column n of the right (its dimension numbers are the plain matrix product's). -/
theorem mm_read (l : FVec Ideal S128x256 .bf16) (r : FVec Ideal S256x4864 .bf16) (p : Fin 128) (n : Fin 4864) :
    matmul dot_S128x256_S256x4864_S128x4864_1_0_0_1_n_n none l r (constant S128x4864 .f32 0x00000000#32) (ix2 p n)
      = ∑ k : Fin 256, l (ix2 p k) * r (ix2 k n) :=
  Dot2.matmul_zero_mm_apply Gen.dot_S128x256_S256x4864_S128x4864_1_0_0_1_n_n_wf none l r p n

/-- The logits as the body computes them, at (p, n): the inner product of feature row p with contrast row n
    (the right operand is the contrast block transposed), times the reciprocal of the temperature, which is
    the division by the temperature. -/
theorem logits_read (x0 : Vec Ideal S128x256 .f32) (x1 : Vec Ideal S4864x256 .f32) (p : Fin 128) (n : Fin 4864) :
    mulf (matmul dot_S128x256_S256x4864_S128x4864_1_0_0_1_n_n none
          (truncf .bf16 (shapeCast S128x256 x0 Gen.shapeCasts_S128x256_S128x256) Gen.bitsLt_bf16_f32)
          (transpose S256x4864 [1, 0] (truncf .bf16 x1 Gen.bitsLt_bf16_f32) Gen.transposes_S4864x256_p1_0_S256x4864)
          (constant S128x4864 .f32 0x00000000#32))
        (broadcast S128x4864 (Named.named (F := Ideal) κ "inv_temperature" (φ := .f32) 0x41649249#32)) (ix2 p n)
      = Ideal.div (∑ k : Fin 256, x0 (ix2 p k) * x1 (ix2 n k)) temp := by
  refine (mulf_apply _ _ _).trans ?_
  rw [broadcast_apply, inv_temperature, ← div_temp]
  refine congrArg (fun s => Ideal.div s temp) ?_
  refine (mm_read _ _ p n).trans ?_
  refine Finset.sum_congr rfl fun k _ => ?_
  refine congrArg₂ (· * ·) ?_ ?_
  · rw [truncf_apply, shapeCast_self]
  · rw [transpose_ix2_apply, truncf_apply]

/-- The marks as the body computes them, at (p, n): the row's label compared with the contrast label n, the bit
    widened with zeros and converted, which is the bit itself. -/
theorem marks_read (x2 : Vec Ideal S128x1 .i32) (x3 : Vec Ideal S1x4864 .i32) (p : Fin 128) (n : Fin 4864) :
    (sitofp .f32 (extui 32 (cmpi .eq
        (broadcastTo S128x4864 (shapeCast S128x1 x2 Gen.shapeCasts_S128x1_S128x1) Gen.broadcasts_S128x1_S128x4864)
        (broadcastTo S128x4864 (shapeCast S1x4864 x3 Gen.shapeCasts_S1x4864_S1x4864) Gen.broadcasts_S1x4864_S128x4864))
        Gen.natLt_1_32) : FVec Ideal S128x4864 .f32) (ix2 p n)
      = same (x2 (ix2 p (0 : Fin 1))) (x3 (ix2 (0 : Fin 1) n)) := by
  show ((((IntOp.cmpi .eq
      (broadcastTo S128x4864 (shapeCast S128x1 x2 Gen.shapeCasts_S128x1_S128x1) Gen.broadcasts_S128x1_S128x4864 (ix2 p n))
      (broadcastTo S128x4864 (shapeCast S1x4864 x3 Gen.shapeCasts_S1x4864_S1x4864) Gen.broadcasts_S1x4864_S128x4864
        (ix2 p n))).setWidth 32).toInt : ℝ) : EReal) = _
  rw [broadcastTo_a1_ab_apply, broadcastTo_1b_ab_apply, shapeCast_self, shapeCast_self, toInt_setWidth_bit]
  rfl

/-! ## The stored entry -/

/-- The exponential and the logarithm of a block at an index are those of the entry. -/
theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-- The value the body stores, at (p, 0): every reduction read at row p, every kept column read back at its row,
    the logits and the marks read at (p, n), and the elementwise operations at an index leave the row loss's own
    formula over the same words. -/
theorem stored_row (x0 : Vec Ideal S128x256 .f32) (x1 : Vec Ideal S4864x256 .f32) (x2 : Vec Ideal S128x1 .i32)
    (x3 : Vec Ideal S1x4864 .i32) (p : Fin 128) :
    Gen.k0_pay1 (Gen.k0_pay2 x0 x1 x2 x3) (Gen.k0_pay3 (F := Ideal)) (ix2 p (0 : Fin 1))
      = rowLoss (fun n => Ideal.div (∑ k : Fin 256, x0 (ix2 p k) * x1 (ix2 n k)) temp)
          (fun n => same (x2 (ix2 p (0 : Fin 1))) (x3 (ix2 (0 : Fin 1) n))) := by
  unfold Gen.k0_pay1 Gen.k0_pay2 Gen.k0_pay3 rowLoss
  dsimp only
  simp only [logits_read _ _ _ _, marks_read _ _ _ _, rowSum_read _ _ _ _, rowMax_read _ _ _ _,
    shapeCast_a_a1_apply _ _ _ _, broadcastTo_a1_ab_apply _ _ _ _,
    mulf_apply, subf_apply, addf_apply, divf_apply, exp_apply, log_apply, broadcast_apply]
  rfl

/-- Row `p` of the block the body stores, from the four input blocks: the row loss whose logits are the
    inner products of row `p` of the feature block with every contrast row over the temperature, and whose
    marks compare the row's label with every contrast label. -/
theorem out_row (x0 : Vec Ideal S128x256 .f32) (x1 : Vec Ideal S4864x256 .f32) (x2 : Vec Ideal S128x1 .i32)
    (x3 : Vec Ideal S1x4864 .i32) (p : Fin 128) :
    Gen.out0_4 (F := Ideal) x0 x1 x2 x3 (ix2 p (0 : Fin 1))
      = rowLoss (fun n => Ideal.div (∑ k : Fin 256, x0 (ix2 p k) * x1 (ix2 n k)) temp)
          (fun n => same (x2 (ix2 p (0 : Fin 1))) (x3 (ix2 (0 : Fin 1) n))) := by
  unfold Gen.out0_4
  rw [View.canon_unit_zero offsets_zero]
  simp only [View.ld_unit_zero (S := S128x256) offsets_zero, View.ld_unit_zero (S := S4864x256) offsets_zero,
    View.ld_unit_zero (S := S128x1) offsets_zero, View.ld_unit_zero (S := S1x4864) offsets_zero]
  exact stored_row x0 x1 x2 x3 p

end Cert.Contrast.KernelRow

end
-- ==== Proof.KernelArray.lean ====
/-
  The output array after the kernel's run: entry `(r, 0)` is the loss of row `r`, computed from the
  arrays the region finds.
-/
import proofs.«145868_j65575560675708_1_alg».proof.Proof.Gen.KernelIdeal.Frame
import proofs.«145868_j65575560675708_1_alg».proof.Proof.Spec
import proofs.«145868_j65575560675708_1_alg».proof.Proof.KernelRow
import Idealize.ShloMosaic.Lib.Pipeline.Value

noncomputable section

open scoped BigOperators

namespace Cert.Contrast.KernelArray

open Idealize.ShloMosaic Idealize.ShloMosaic.TcCoe Idealize.ShloMosaic.ValueIdx Cert.KernelIdeal Cert.KernelIdeal.Gen Cert.Contrast
open Idealize.ShloMosaic.Pipeline (Dat)

variable (m : (ℓ : Loc nD τ sig) → Buf (Elt Ideal) ℓ)

/-- The feature array the region finds (the normalised anchors, view-major), -/
abbrev feat (c : Dev nD) : Vec Ideal S16384x256 .f32 := V m c main_v5
/-- the contrast array, -/
abbrev contrast (c : Dev nD) : Vec Ideal S4864x256 .f32 := V m c main_arg2
/-- the row labels as a column, -/
abbrev rowLab (c : Dev nD) : Vec Ideal S16384x1 .i32 := V m c main_v9
/-- and the contrast labels as a row. -/
abbrev colLab (c : Dev nD) : Vec Ideal S1x4864 .i32 := V m c main_v10

/-- The loss array: entry `(r, 0)` is the loss of row `r`. -/
def lossArr (c : Dev nD) : Vec Ideal S16384x1 .f32 := fun i =>
  rowv (fun r k => feat m c (ix2 r k)) (fun n k => contrast m c (ix2 n k))
    (fun r => rowLab m c (ix2 r (0 : Fin 1))) (fun n => colLab m c (ix2 (0 : Fin 1) n)) ⟨(i 0).val, (i 0).isLt⟩

/-! ## Where each window's block sits at a grid point -/

/-- The block indices of the five windows at grid point `t`: the feature rows, the row labels and the
    output move with the point along the rows (block `t` of 128 rows); the contrast array and the
    contrast labels are taken whole at every point. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The 128 feature rows grid point `t` works on, -/
abbrev featBlk (c : Dev nD) (t : Fin cfg0.N) : Vec Ideal S128x256 .f32 := iblk m c 0 t
/-- the contrast rows it sees (all of them), -/
abbrev contrastBlk (c : Dev nD) (t : Fin cfg0.N) : Vec Ideal S4864x256 .f32 := iblk m c 1 t
/-- the labels of its 128 rows, -/
abbrev rowLabBlk (c : Dev nD) (t : Fin cfg0.N) : Vec Ideal S128x1 .i32 := iblk m c 2 t
/-- and the contrast labels it sees (all of them). -/
abbrev colLabBlk (c : Dev nD) (t : Fin cfg0.N) : Vec Ideal S1x4864 .i32 := iblk m c 3 t

/-- Row `p` of point `t`'s feature block is row `128 t + p` of the feature array. -/
theorem featBlk_apply (c : Dev nD) (t : Fin cfg0.N) (p : Fin 128) (k : Fin 256) (r : Fin 16384)
    (hr : r.val = 128 * t.val + p.val) : featBlk m c t (ix2 p k) = feat m c (ix2 r k) := by
  obtain ⟨e0, e1, -⟩ := block_index t
  show feat m c (((cfg0.win 0).blk t).view.emb (ix2 p k)) = feat m c (ix2 r k)
  refine congrArg (feat m c) ?_
  funext a; apply Fin.ext
  match a with
  | ⟨0, _⟩ => show win0_0.index t (0 : Fin 2) * 128 + 1 * p.val = r.val; omega
  | ⟨1, _⟩ => show win0_0.index t (1 : Fin 2) * 256 + 1 * k.val = k.val; omega

/-- Every point's contrast block is the contrast array. -/
theorem contrastBlk_apply (c : Dev nD) (t : Fin cfg0.N) (n : Fin 4864) (k : Fin 256) :
    contrastBlk m c t (ix2 n k) = contrast m c (ix2 n k) := by
  obtain ⟨-, -, e0, e1, -⟩ := block_index t
  show contrast m c (((cfg0.win 1).blk t).view.emb (ix2 n k)) = contrast m c (ix2 n k)
  refine congrArg (contrast m c) ?_
  funext a; apply Fin.ext
  match a with
  | ⟨0, _⟩ => show win0_1.index t (0 : Fin 2) * 4864 + 1 * n.val = n.val; omega
  | ⟨1, _⟩ => show win0_1.index t (1 : Fin 2) * 256 + 1 * k.val = k.val; omega

/-- Row `p` of point `t`'s label block is the label of row `128 t + p`. -/
theorem rowLabBlk_apply (c : Dev nD) (t : Fin cfg0.N) (p : Fin 128) (r : Fin 16384)
    (hr : r.val = 128 * t.val + p.val) :
    rowLabBlk m c t (ix2 p (0 : Fin 1)) = rowLab m c (ix2 r (0 : Fin 1)) := by
  obtain ⟨-, -, -, -, e0, e1, -⟩ := block_index t
  show rowLab m c (((cfg0.win 2).blk t).view.emb (ix2 p (0 : Fin 1))) = rowLab m c (ix2 r (0 : Fin 1))
  refine congrArg (rowLab m c) ?_
  funext a; apply Fin.ext
  match a with
  | ⟨0, _⟩ => show win0_2.index t (0 : Fin 2) * 128 + 1 * p.val = r.val; omega
  | ⟨1, _⟩ => show win0_2.index t (1 : Fin 2) * 1 + 1 * 0 = 0; omega

/-- Every point's contrast-label block is the contrast-label row. -/
theorem colLabBlk_apply (c : Dev nD) (t : Fin cfg0.N) (n : Fin 4864) :
    colLabBlk m c t (ix2 (0 : Fin 1) n) = colLab m c (ix2 (0 : Fin 1) n) := by
  obtain ⟨-, -, -, -, -, -, e0, e1, -⟩ := block_index t
  show colLab m c (((cfg0.win 3).blk t).view.emb (ix2 (0 : Fin 1) n)) = colLab m c (ix2 (0 : Fin 1) n)
  refine congrArg (colLab m c) ?_
  funext a; apply Fin.ext
  match a with
  | ⟨0, _⟩ => show win0_3.index t (0 : Fin 2) * 1 + 1 * 0 = 0; omega
  | ⟨1, _⟩ => show win0_3.index t (1 : Fin 2) * 4864 + 1 * n.val = n.val; omega

/-! ## What a grid point writes back -/

/-- Entry `p` of what point `t` leaves in the output block is the loss of row `128 t + p`. -/
theorem out_entry (c : Dev nD) (t : Fin cfg0.N) (p : Fin 128) (i : S16384x1.Idx)
    (hi : (i 0).val = 128 * t.val + p.val) :
    out0_4 (featBlk m c t) (contrastBlk m c t) (rowLabBlk m c t) (colLabBlk m c t) (ix2 p (0 : Fin 1))
      = lossArr m c i := by
  refine (KernelRow.out_row (featBlk m c t) (contrastBlk m c t) (rowLabBlk m c t) (colLabBlk m c t) p).trans ?_
  unfold lossArr rowv
  exact congrArg₂ rowLoss
    (funext fun n => congrArg (fun s => Ideal.div s temp)
      (Finset.sum_congr rfl fun k _ => congrArg₂ (· * ·)
        (featBlk_apply m c t p k ⟨(i 0).val, (i 0).isLt⟩ hi) (contrastBlk_apply m c t n k)))
    (funext fun n => congrArg₂ same
      (rowLabBlk_apply m c t p ⟨(i 0).val, (i 0).isLt⟩ hi) (colLabBlk_apply m c t n))

/-- What point `t` writes back is block `t` of the loss array. -/
theorem flushed_eq (c : Dev nD) (t : Fin cfg0.N) :
    (dats m 0 c).flushed 4 t = ((cfg0.win 4).blk t).view.read (Elt Ideal) (lossArr m c) := by
  show (cfg0.win 4).cut (grid0.coords t) ((dats m 0 c).after 4 t) = _
  rw [after0_4]
  obtain ⟨-, -, -, -, -, -, -, -, e0, e1⟩ := block_index t
  funext y
  obtain ⟨p, q, rfl⟩ : ∃ (p : Fin 128) (q : Fin 1), y = ix2 p q := ⟨y 0, y 1, eq_ix2 y⟩
  obtain rfl : q = 0 := Subsingleton.elim _ _
  show out0_4 (featBlk m c t) (contrastBlk m c t) (rowLabBlk m c t) (colLabBlk m c t) (ix2 p (0 : Fin 1))
    = lossArr m c (((cfg0.win 4).blk t).view.emb (ix2 p (0 : Fin 1)))
  refine out_entry m c t p _ ?_
  show win0_4.index t (0 : Fin 2) * 128 + 1 * p.val = 128 * t.val + p.val
  omega

/-! ## The blocks tile the array -/

/-- An index of the output array is in point `t`'s block iff each coordinate is in the block's range. -/
theorem mem_blk (t : Fin cfg0.N) (i : S16384x1.Idx) :
    i ∈ ((cfg0.win 4).blk t).view.set ↔ ∀ a : Fin 2, win0_4.index t a * S128x1.size a ≤ (i a).val
      ∧ (i a).val < win0_4.index t a * S128x1.size a + S128x1.size a := by
  show i ∈ ((View.whole main_v11).slice (win0_4.rect t)).set ↔ _
  rw [View.set_slice_whole, Rect.mem_set_unit]
  exact Iff.rfl

/-- Row `r` of the output array is written by grid point `r / 128`. -/
theorem cover (i : S16384x1.Idx) :
    ∃ t : Fin cfg0.N, (cfg0.win 4).flush t = true ∧ i ∈ ((cfg0.win 4).blk t).view.set := by
  have hN : grid0.N = 128 := N_0
  have hi0 : (i 0).val < 16384 := (i 0).isLt
  have hi1 : (i 1).val < 1 := (i 1).isLt
  obtain ⟨t, ht⟩ : ∃ t : Fin cfg0.N, t.val = (i 0).val / 128 :=
    ⟨⟨(i 0).val / 128, by show _ < grid0.N; omega⟩, rfl⟩
  obtain ⟨-, -, -, -, -, -, -, -, e0, e1⟩ := block_index t
  refine ⟨t, flush0_4 t, ?_⟩
  rw [mem_blk]
  intro a
  match a with
  | ⟨0, _⟩ =>
    show win0_4.index t (0 : Fin 2) * 128 ≤ (i 0).val ∧ (i 0).val < win0_4.index t (0 : Fin 2) * 128 + 128
    omega
  | ⟨1, _⟩ =>
    show win0_4.index t (1 : Fin 2) * 1 ≤ (i 1).val ∧ (i 1).val < win0_4.index t (1 : Fin 2) * 1 + 1
    omega

/-- After the run the output array is the loss array: every grid point writes its 128 rows, and the 128
    points' blocks tile the 16384 rows. -/
theorem final4 (c : Dev nD) : (dats m 0 c).arrAt 4 cfg0.N = lossArr m c :=
  (dats m 0 c).arrAt_eq_of_cover 4 (lossArr m c) (fun t _ => flushed_eq m c t) cover

end Cert.Contrast.KernelArray

end
-- ==== Proof.KernelHost.lean ====
/-
  What the kernel's region finds in its arrays, as functions of the arguments.

  The feature array is the anchors divided by their clipped norms, the two leading axes swapped and
  merged (view-major rows): kept as ONE function `featOf` of the anchor array, never opened. The row
  labels are the anchor labels repeated for each of the 256 views, as a column: row `r` carries the
  label of anchor `r mod 64`. The contrast labels are laid out as one row.
-/
import proofs.«145868_j65575560675708_1_alg».proof.Proof.Gen.KernelIdeal.Frame
import proofs.«145868_j65575560675708_1_alg».proof.Proof.Spec
import Idealize.ShloMosaic.Lib.StableHlo.Run
import Idealize.ShloMosaic.Lib.Pipeline.Value

noncomputable section

open scoped BigOperators

namespace Cert.Contrast.KernelHost

open Idealize.ShloMosaic Idealize.ShloMosaic.TcCoe Idealize.ShloMosaic.ValueIdx Idealize.ShloMosaic.StableHlo Cert.KernelIdeal Cert.KernelIdeal.Gen Cert.Contrast

/-- The normalised anchors in view-major rows: each anchor vector over the larger of its Euclidean norm and the
    word of 1e-12, then `[64, 256, 256] → [256, 64, 256] → [16384, 256]`. -/
def featOf {F : FTy → Type} [FloatOps F] (x : FVec F S64x256x256 .f32) : FVec F S16384x256 .f32 :=
  shapeCast S16384x256
    (transpose S256x64x256 [1, 0, 2]
      (Host.divf x
        (broadcastInDim S64x256x256 ![0, 1, 2] bcast_S64x256x1_S64x256x256_0_1_2
          (maximumf
            (broadcastInDim S64x256x1 ![] bcast_S_S64x256x1 (id (constant S_ .f32 0x2B8CBCCC#32)))
            (Host.sqrt
              (broadcastInDim S64x256x1 ![0, 1] bcast_S64x256_S64x256x1_0_1
                (Host.reduceAdd (mulf x x) (constant S_ .f32 0x00000000#32) reducesTo_S64x256x256_S64x256_d2 h_S_))))))
      transposes_S64x256x256_S256x64x256_1_0_2)
    shapeCasts_S256x64x256_S16384x256

/-- The anchor labels repeated over the views, as a column. -/
def rowLabOf (y : IVec S64 32) : IVec S16384x1 32 :=
  shapeCast S16384x1
    (shapeCast S16384
      (broadcastInDim S256x64 ![0, 1] bcast_S1x64_S256x64_0_1 (shapeCast S1x64 y shapeCasts_S64_S1x64))
      shapeCasts_S256x64_S16384)
    shapeCasts_S16384_S16384x1

/-- The contrast labels as one row. -/
def colLabOf (y : IVec S4864 32) : IVec S1x4864 32 := shapeCast S1x4864 y shapeCasts_S4864_S1x4864

/-- Row `r` of the label column is the label of anchor `r mod 64`: `r` is view `r / 64`, anchor `r mod 64`. -/
theorem rowLabOf_apply (y : IVec S64 32) (r : Fin 16384) :
    rowLabOf y (ix2 r (0 : Fin 1)) = y (ix1 (⟨r.val % 64, Nat.mod_lt _ (by decide)⟩ : Fin 64)) := by
  have hr := r.isLt
  unfold rowLabOf
  refine (shapeCast_apply _ _ (ix2 r (0 : Fin 1)) (ix1 r) (by
    rw [Shape.rowMajor_val_one, Shape.rowMajor_val_two]; show r.val = r.val * 1 + 0; omega)).trans ?_
  refine (shapeCast_apply _ _ (ix1 r) (ix2 (⟨r.val / 64, by omega⟩ : Fin 256) (⟨r.val % 64, Nat.mod_lt _ (by decide)⟩ : Fin 64)) (by
    rw [Shape.rowMajor_val_one, Shape.rowMajor_val_two]; show r.val / 64 * 64 + r.val % 64 = r.val; omega)).trans ?_
  refine (broadcastInDim_apply _ _ _ _ (ix2 (0 : Fin 1) (⟨r.val % 64, Nat.mod_lt _ (by decide)⟩ : Fin 64)) (by
    intro a; match a with | ⟨0, _⟩ => rfl | ⟨1, _⟩ => rfl)).trans ?_
  exact shapeCast_apply _ _ _ (ix1 (⟨r.val % 64, Nat.mod_lt _ (by decide)⟩ : Fin 64)) (by
    rw [Shape.rowMajor_val_one, Shape.rowMajor_val_two]; show r.val % 64 = 0 * 64 + r.val % 64; omega)

/-- Entry `n` of the label row is contrast label `n`. -/
theorem colLabOf_apply (y : IVec S4864 32) (n : Fin 4864) :
    colLabOf y (ix2 (0 : Fin 1) n) = y (ix1 n) := by
  unfold colLabOf
  exact shapeCast_apply _ _ _ (ix1 n) (by
    rw [Shape.rowMajor_val_one, Shape.rowMajor_val_two]; show n.val = 0 * 4864 + n.val; omega)

variable (m : (ℓ : Loc nD τ sig) → Buf (Elt Ideal) ℓ)

/-- The feature array the region finds is `featOf` of the anchor argument. -/
theorem V_feat (c : Dev nD) :
    (V m c main_v5 : Vec Ideal S16384x256 .f32) = featOf (F := Ideal) (m ((c.tc : Thread nD τ).loc main_arg0)) := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

/-- The row-label array the region finds, of the anchor labels. -/
theorem V_rowLab (c : Dev nD) :
    (V m c main_v9 : Vec Ideal S16384x1 .i32) = rowLabOf (m ((c.tc : Thread nD τ).loc main_arg1)) := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

/-- The contrast-label array the region finds, of the contrast labels. -/
theorem V_colLab (c : Dev nD) :
    (V m c main_v10 : Vec Ideal S1x4864 .i32) = colLabOf (m ((c.tc : Thread nD τ).loc main_arg3)) := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

end Cert.Contrast.KernelHost

end
-- ==== Proof.KernelValue.lean ====
/-
  The kernel's run with its result named: the mean over the 16384 rows of the row losses, as a function of
  the four arguments.
-/
import proofs.«145868_j65575560675708_1_alg».proof.Proof.Gen.KernelIdeal.Frame
import proofs.«145868_j65575560675708_1_alg».proof.Proof.Spec
import proofs.«145868_j65575560675708_1_alg».proof.Proof.KernelArray
import proofs.«145868_j65575560675708_1_alg».proof.Proof.KernelHost
import Idealize.ShloMosaic.Lib.StableHlo.Run
import Idealize.ShloMosaic.PureOps.Ideal.Laws

noncomputable section

open scoped BigOperators

namespace Cert.Contrast.KernelValue

open Idealize.ShloMosaic Idealize.ShloMosaic.TcCoe Idealize.ShloMosaic.ValueIdx Idealize.ShloMosaic.StableHlo Idealize.SL.Sem Cert.KernelIdeal Cert.KernelIdeal.Gen Cert.Contrast
open Cert.Contrast.KernelHost Cert.Contrast.KernelArray

/-- The result as a function of the arguments: the mean of the row losses, the feature rows `featOf` of the
    anchors, row `r`'s label the anchor label at `r mod 64`. -/
def resultOf (x0 : FVec Ideal S64x256x256 .f32) (x1 : IVec S64 32) (x2 : FVec Ideal S4864x256 .f32) (x3 : IVec S4864 32) : EReal :=
  meanLoss (rowv (fun r k => featOf (F := Ideal) x0 (ix2 r k)) (fun n k => x2 (ix2 n k))
    (fun r => x1 (ix1 (⟨r.val % 64, Nat.mod_lt _ (by decide)⟩ : Fin 64))) (fun n => x3 (ix1 n)))

variable (m : (ℓ : Loc nD τ sig) → Buf (Elt Ideal) ℓ) (ρ : Dev nD → PrngReg)

/-- Row `r` of the loss array, in terms of the arguments. -/
theorem lossArr_row (c : Dev nD) (r : Fin 16384) :
    lossArr m c (ix2 r (0 : Fin 1))
      = rowv (fun r k => featOf (F := Ideal) (m ((c.tc : Thread nD τ).loc main_arg0)) (ix2 r k))
          (fun n k => m ((c.tc : Thread nD τ).loc main_arg2) (ix2 n k))
          (fun r => m ((c.tc : Thread nD τ).loc main_arg1) (ix1 (⟨r.val % 64, Nat.mod_lt _ (by decide)⟩ : Fin 64)))
          (fun n => m ((c.tc : Thread nD τ).loc main_arg3) (ix1 n)) r := by
  have e0 : (fun (r : Fin 16384) (k : Fin 256) => feat m c (ix2 r k))
      = fun r k => featOf (F := Ideal) (m ((c.tc : Thread nD τ).loc main_arg0)) (ix2 r k) :=
    funext fun r => funext fun k => congrFun (V_feat m c) (ix2 r k)
  have e1 : (fun (n : Fin 4864) (k : Fin 256) => contrast m c (ix2 n k))
      = fun n k => m ((c.tc : Thread nD τ).loc main_arg2) (ix2 n k) :=
    funext fun n => funext fun k => congrFun (V_main_arg2 m c) (ix2 n k)
  have e2 : (fun (r : Fin 16384) => rowLab m c (ix2 r (0 : Fin 1)))
      = fun r => m ((c.tc : Thread nD τ).loc main_arg1) (ix1 (⟨r.val % 64, Nat.mod_lt _ (by decide)⟩ : Fin 64)) :=
    funext fun r => (congrFun (V_rowLab m c) (ix2 r (0 : Fin 1))).trans (rowLabOf_apply _ r)
  have e3 : (fun (n : Fin 4864) => colLab m c (ix2 (0 : Fin 1) n))
      = fun n => m ((c.tc : Thread nD τ).loc main_arg3) (ix1 n) :=
    funext fun n => (congrFun (V_colLab m c) (ix2 (0 : Fin 1) n)).trans (colLabOf_apply _ n)
  show rowv (fun r k => feat m c (ix2 r k)) (fun n k => contrast m c (ix2 n k))
    (fun r => rowLab m c (ix2 r (0 : Fin 1))) (fun n => colLab m c (ix2 (0 : Fin 1) n)) r = _
  rw [e0, e1, e2, e3]

/-- The total of a `[16384, 1]` array is the sum over its rows. -/
theorem sum_column (f : S16384x1.Idx → EReal) : ∑ i : S16384x1.Idx, f i = ∑ r : Fin 16384, f (ix2 r (0 : Fin 1)) := by
  rw [sum_idx2]
  exact Finset.sum_congr rfl fun r _ => Fin.sum_univ_one _

/-- What the operations after the region leave in the result buffer: the mean of the loss array's rows. -/
theorem tail_value (c : Dev nD) :
    Pipeline.afterTail₀ cfgs (dats m) 0 (V0 m) [hostOps1] c main_v13
      = fun _ => resultOf (m ((c.tc : Thread nD τ).loc main_arg0)) (m ((c.tc : Thread nD τ).loc main_arg1))
          (m ((c.tc : Thread nD τ).loc main_arg2)) (m ((c.tc : Thread nD τ).loc main_arg3)) := by
  unfold Pipeline.afterTail₀
  show StableHlo.after hostOps1 _ (Proc.devRef .tc main_v13) = _
  after_results
  have hA : Pipeline.withArrays (cfgs 0).spec c (V0 m c) (fun w => (dats m 0 c).arrAt w (cfgs 0).N) (Proc.devRef .tc main_v11)
      = lossArr m c :=
    (Pipeline.withArrays_arr spec0 launch0.win.arr_inj c _ _ 4).trans (final4 m c)
  rw [hA]
  funext i
  have hsum : Host.reduceAdd (lossArr m c) (constant (F := Ideal) S_ .f32 0x00000000#32) reducesTo_S16384x1_S_d0_1 h_S_ i
      = ∑ r : Fin 16384, lossArr m c (ix2 r (0 : Fin 1)) := by
    refine (show _ = (constant (F := Ideal) S_ .f32 0x00000000#32) (Shape.Idx.first h_S_) + ∑ j : S16384x1.Idx, lossArr m c j from ?_).trans ?_
    · generalize lossArr m c = L
      simp only [Host.reduceAdd, Ideal.hostReduceAdd_def]
      exact Ideal.hostReduceAdd_total reducesTo_S16384x1_S_d0_1 (fun b => b.elim0) L _ i
    · show Ideal.ofBits .f32 0x00000000#32 + _ = _
      rw [Ideal.ofBits_zero_f32, zero_add, sum_column]
  show Ideal.div (Host.reduceAdd (lossArr m c) (constant (F := Ideal) S_ .f32 0x00000000#32) reducesTo_S16384x1_S_d0_1 h_S_ i) rowCount = _
  rw [hsum]
  unfold resultOf meanLoss
  exact congrArg (fun s => Ideal.div s rowCount) (Finset.sum_congr rfl fun r _ => lossArr_row m c r)

/-- Every weakly fair execution of the kernel's program terminates with the result buffer at `resultOf` of the
    arguments and the arguments unchanged. -/
theorem run_value :
    θ_run defs (onTc (τ := τ) (main (F := Ideal))) ⟨m, fun _ => 0, ρ⟩ (fun r => ∀ c : Dev nD,
      r.2.mem ((c.tc : Thread nD τ).loc main_v13)
        = (fun _ => resultOf (m ((c.tc : Thread nD τ).loc main_arg0)) (m ((c.tc : Thread nD τ).loc main_arg1))
            (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v13 (Pipeline.mem_restRefs_of main_v13 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end Cert.Contrast.KernelValue

end
-- ==== Proof.RefRow.lean ====
/-
  The reference's result as the mean of the row losses.
-/
import proofs.«145868_j65575560675708_1_alg».proof.Proof.Gen.ReferenceIdeal.Read
import proofs.«145868_j65575560675708_1_alg».proof.Proof.Spec
import proofs.«145868_j65575560675708_1_alg».proof.Proof.LibDot2

noncomputable section

open scoped BigOperators

namespace Cert.Contrast.RefRow

open Idealize.ShloMosaic Idealize.ShloMosaic.ValueIdx Cert.ReferenceIdeal Cert.ReferenceIdeal.Read Cert.Contrast

section
variable (x0 : (⟨S64x256x256, .f32⟩ : BufTy).Contents (Elt Ideal)) (x1 : (⟨S64, .i32⟩ : BufTy).Contents (Elt Ideal))
  (x2 : (⟨S4864x256, .f32⟩ : BufTy).Contents (Elt Ideal)) (x3 : (⟨S4864, .i32⟩ : BufTy).Contents (Elt Ideal))

/-- The label of row `r`: the anchor label at `r mod 64`. -/
abbrev lab (r : Fin 16384) : BitVec 32 := x1 (ix1 (⟨r.val % 64, Nat.mod_lt _ (by decide)⟩ : Fin 64))

/-- The mark at `(r, n)`: the reshapes and the broadcast read the comparison at `(r mod 64, n)`. -/
theorem marks (r : Fin 16384) (n : Fin 4864) :
    val_main_v14 (F := Ideal) x1 x3 (ix2 r n) = same (lab x1 r) (x3 (ix1 n)) := by
  rw [val_main_v14_apply, val_main_v13_apply, val_main_v12_apply, val_main_v11_apply, val_main_v10_apply,
    val_main_v8_apply, val_main_v9_apply, val_main_v6_apply, val_main_v7_apply]
  have h1 : idx_main_v6 (idx_main_v8 (idx_main_v12 (idx_main_v13 (idx_main_v14 (ix2 r n)))))
      = ix1 (⟨r.val % 64, Nat.mod_lt _ (by decide)⟩ : Fin 64) := by
    funext a; apply Fin.ext
    match a with
    | ⟨0, _⟩ =>
      have hr : r.val < 16384 := r.isLt
      have hn : n.val < 4864 := n.isLt
      show ((((0 * 64 + (r.val * 4864 + n.val) / 4864 % 64) * 1 + 0) * 4864 + (r.val * 4864 + n.val) % 4864) / 4864) = r.val % 64
      omega
  have h3 : idx_main_v7 (idx_main_v9 (idx_main_v12 (idx_main_v13 (idx_main_v14 (ix2 r n))))) = ix1 n := by
    funext a; apply Fin.ext
    match a with
    | ⟨0, _⟩ =>
      have hr : r.val < 16384 := r.isLt
      have hn : n.val < 4864 := n.isLt
      show ((((0 * 64 + (r.val * 4864 + n.val) / 4864 % 64) * 1 + 0) * 4864 + (r.val * 4864 + n.val) % 4864) % 4864) = n.val
      omega
  rw [h1, h3]
  rfl

/-- The logit at `(r, n)`: the inner product of feature row `r` with contrast row `n`, over the temperature. -/
theorem logits (r : Fin 16384) (n : Fin 4864) :
    val_main_v18 (F := Ideal) x0 x2 (ix2 r n)
      = Ideal.div (∑ k : Fin 256, val_main_v5 (F := Ideal) x0 (ix2 r k) * x2 (ix2 n k)) temp := by
  rw [val_main_v18_apply, val_main_v16_apply, val_main_v17_apply]
  have hs : ∀ k : Fin 256, (val_main_v5 (F := Ideal) x0) (lidx_main_v16 (ix2 r n) k) * (val_main_v15 (F := Ideal) x2) (ridx_main_v16 (ix2 r n) k)
      = val_main_v5 (F := Ideal) x0 (ix2 r k) * x2 (ix2 n k) := by
    intro k
    rw [val_main_v15_apply]
    have e1 : lidx_main_v16 (ix2 r n) k = ix2 r k := funext fun a => Fin.ext (by match a with | ⟨0, _⟩ => rfl | ⟨1, _⟩ => rfl)
    have e2 : idx_main_v15 (ridx_main_v16 (ix2 r n) k) = ix2 n k := funext fun a => Fin.ext (by match a with | ⟨0, _⟩ => rfl | ⟨1, _⟩ => rfl)
    rw [e1, e2]
  rw [Finset.sum_congr rfl fun k _ => hs k]
  rfl

end

/-- The host's reduce with a maximum body over axis 1 of a [16384, 4864] array, from -inf: at row `r` the fold of
    `max` from -inf over the row's entries. -/
theorem hostMax_row (y : FVec Ideal S16384x4864 .f32) (h' : S16384x4864.ReducesTo [1] S16384) (hu : 0 < S_.numel)
    (r : Fin 16384) :
    Host.reduce FloatOps.maximumf y (constant (F := Ideal) S_ .f32 0xFF800000#32) h' hu (ix1 r)
      = rowMax (fun n => y (ix2 r n)) := by
  have h : S16384x4864.Reduces [1] S16384 := by decide
  rw [Host.reduce_eq_fold_single FloatOps.maximumf y _ h' h hu]
  have hf : (y ∘ h.lift (ix1 r)) = fun n : Fin 4864 => y (ix2 r n) :=
    funext fun k => congrArg y (funext fun a => Fin.ext (by match a with | ⟨0, _⟩ => rfl | ⟨1, _⟩ => rfl))
  exact congrArg (fun f => Finset.fold max negInf f (Finset.univ : Finset (Fin 4864))) hf

section
variable (x0 : (⟨S64x256x256, .f32⟩ : BufTy).Contents (Elt Ideal)) (x1 : (⟨S64, .i32⟩ : BufTy).Contents (Elt Ideal))
  (x2 : (⟨S4864x256, .f32⟩ : BufTy).Contents (Elt Ideal)) (x3 : (⟨S4864, .i32⟩ : BufTy).Contents (Elt Ideal))

/-- The row maximum at `r`: the fold of `max` from -inf over the row's 4864 entries. -/
theorem rowmax (r : Fin 16384) :
    val_main_v19 (F := Ideal) x0 x2 (ix1 r) = rowMax (fun n => val_main_v18 (F := Ideal) x0 x2 (ix2 r n)) := by
  unfold val_main_v19
  exact hostMax_row (val_main_v18 (F := Ideal) x0 x2) _ _ r

end

section
variable (x0 : (⟨S64x256x256, .f32⟩ : BufTy).Contents (Elt Ideal)) (x1 : (⟨S64, .i32⟩ : BufTy).Contents (Elt Ideal))
  (x2 : (⟨S4864x256, .f32⟩ : BufTy).Contents (Elt Ideal)) (x3 : (⟨S4864, .i32⟩ : BufTy).Contents (Elt Ideal))

/-- Row `r` of the logits. -/
abbrev Lg (r : Fin 16384) (n : Fin 4864) : EReal := val_main_v18 (F := Ideal) x0 x2 (ix2 r n)
/-- Row `r` of the marks. -/
abbrev Kg (r : Fin 16384) (n : Fin 4864) : EReal := val_main_v14 (F := Ideal) x1 x3 (ix2 r n)

/-- The shifted logit at `(r, n)`: the logit less its row's maximum. -/
theorem shifted (r : Fin 16384) (n : Fin 4864) :
    val_main_v22 (F := Ideal) x0 x2 (ix2 r n) = Lg x0 x2 r n - rowMax (Lg x0 x2 r) := by
  rw [val_main_v22_apply, val_main_v21_apply, val_main_v20_apply]
  have e : idx_main_v20 (idx_main_v21 (ix2 r n)) = ix1 r :=
    funext fun a => Fin.ext (by match a with | ⟨0, _⟩ => rfl)
  rw [e, rowmax]
  rfl

/-- The positive product at `(r, n)`. -/
theorem pos (r : Fin 16384) (n : Fin 4864) :
    val_main_v23 (F := Ideal) x0 x1 x2 x3 (ix2 r n) = (Lg x0 x2 r n - rowMax (Lg x0 x2 r)) * Kg x1 x3 r n := by
  rw [val_main_v23_apply, shifted]
  rfl

/-- The sum of the negatives' exponentials of row `r`. -/
theorem negsum (r : Fin 16384) :
    val_main_v28 (F := Ideal) x0 x1 x2 x3 (ix1 r)
      = ∑ j : Fin 4864, Ideal.exp ((Lg x0 x2 r j - rowMax (Lg x0 x2 r)) * (one - Kg x1 x3 r j)) := by
  rw [val_main_v28_apply, val_main_cst_3_apply]
  refine (congrArg (· + _) Ideal.ofBits_zero_f32).trans ((zero_add _).trans ?_)
  refine Finset.sum_congr rfl fun k _ => ?_
  have e : idx_main_v28 (ix1 r) k = ix2 r k :=
    funext fun a => Fin.ext (by match a with | ⟨0, _⟩ => rfl | ⟨1, _⟩ => rfl)
  rw [e, val_main_v27_apply, val_main_v26_apply, val_main_v25_apply, val_main_v24_apply, shifted]
  rfl

/-- The log-probability at `(r, n)`. -/
theorem logprob (r : Fin 16384) (n : Fin 4864) :
    val_main_v36 (F := Ideal) x0 x1 x2 x3 (ix2 r n)
      = (Lg x0 x2 r n - rowMax (Lg x0 x2 r)) * Kg x1 x3 r n
        - Ideal.log (Ideal.exp ((Lg x0 x2 r n - rowMax (Lg x0 x2 r)) * Kg x1 x3 r n)
            + (∑ j : Fin 4864, Ideal.exp ((Lg x0 x2 r j - rowMax (Lg x0 x2 r)) * (one - Kg x1 x3 r j))) + eps) := by
  rw [val_main_v36_apply, val_main_v35_apply, val_main_v34_apply, val_main_v33_apply, val_main_v32_apply,
    val_main_v31_apply, val_main_v30_apply, val_main_v29_apply, pos]
  have e : idx_main_v29 (idx_main_v31 (ix2 r n)) = ix1 r :=
    funext fun a => Fin.ext (by match a with | ⟨0, _⟩ => rfl)
  rw [e, negsum]
  rfl

/-- The loss of row `r`, in the row's logits and marks. -/
theorem rowval (r : Fin 16384) :
    val_main_v41 (F := Ideal) x0 x1 x2 x3 (ix1 r) = rowLoss (Lg x0 x2 r) (Kg x1 x3 r) := by
  rw [val_main_v41_apply, val_main_v40_apply, val_main_v39_apply, val_main_v37_apply, val_main_v38_apply,
    val_main_cst_5_apply, val_main_cst_6_apply]
  have e37 : ∀ k : Fin 4864, idx_main_v37 (ix1 r) k = ix2 r k := fun k =>
    funext fun a => Fin.ext (by match a with | ⟨0, _⟩ => rfl | ⟨1, _⟩ => rfl)
  have e38 : ∀ k : Fin 4864, idx_main_v38 (ix1 r) k = ix2 r k := fun k =>
    funext fun a => Fin.ext (by match a with | ⟨0, _⟩ => rfl | ⟨1, _⟩ => rfl)
  rw [Finset.sum_congr rfl fun k _ => (congrArg (val_main_v36 (F := Ideal) x0 x1 x2 x3) (e37 k)).trans (logprob x0 x1 x2 x3 r k),
    Finset.sum_congr rfl fun k _ => congrArg (val_main_v14 (F := Ideal) x1 x3) (e38 k)]
  have hz : (FloatOps.ofBits (F := Ideal) .f32 0x00000000#32 : EReal) = 0 := Ideal.ofBits_zero_f32
  rw [hz, zero_add, zero_add]
  rfl

end

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section
variable (x0 : (⟨S64x256x256, .f32⟩ : BufTy).Contents (Elt Ideal)) (x1 : (⟨S64, .i32⟩ : BufTy).Contents (Elt Ideal))
  (x2 : (⟨S4864x256, .f32⟩ : BufTy).Contents (Elt Ideal)) (x3 : (⟨S4864, .i32⟩ : BufTy).Contents (Elt Ideal))

/-- The loss of row `r`, from the four arguments. -/
theorem rowval_eq (r : Fin 16384) :
    val_main_v41 (F := Ideal) x0 x1 x2 x3 (ix1 r)
      = rowv (fun r k => val_main_v5 (F := Ideal) x0 (ix2 r k)) (fun n k => x2 (ix2 n k))
          (fun r => x1 (ix1 (⟨r.val % 64, Nat.mod_lt _ (by decide)⟩ : Fin 64))) (fun n => x3 (ix1 n)) r := by
  rw [rowval]
  have hL : Lg x0 x2 r = fun n => Ideal.div (∑ k : Fin 256, val_main_v5 (F := Ideal) x0 (ix2 r k) * x2 (ix2 n k)) temp :=
    funext fun n => logits x0 x2 r n
  have hK : Kg x1 x3 r = fun n => same (x1 (ix1 (⟨r.val % 64, Nat.mod_lt _ (by decide)⟩ : Fin 64))) (x3 (ix1 n)) :=
    funext fun n => marks x1 x3 r n
  rw [hL, hK]
  rfl

end

/-- The reference's result, from its four arguments: the mean over the 16384 rows of the row loss, the feature
    rows being the reference's own normalised, view-major anchors (`val_main_v5`), row `r`'s label the anchor
    label at `r mod 64`. -/
theorem ref_value (x0 : (⟨S64x256x256, .f32⟩ : BufTy).Contents (Elt Ideal)) (x1 : (⟨S64, .i32⟩ : BufTy).Contents (Elt Ideal))
    (x2 : (⟨S4864x256, .f32⟩ : BufTy).Contents (Elt Ideal)) (x3 : (⟨S4864, .i32⟩ : BufTy).Contents (Elt Ideal)) :
    val_main_v43 (F := Ideal) x0 x1 x2 x3
      = fun _ => meanLoss (rowv (fun r k => val_main_v5 (F := Ideal) x0 (ix2 r k)) (fun n k => x2 (ix2 n k))
          (fun r => x1 (ix1 (⟨r.val % 64, Nat.mod_lt _ (by decide)⟩ : Fin 64))) (fun n => x3 (ix1 n))) := by
  funext i
  rw [val_main_v43_apply, val_main_v42_apply, val_main_cst_8_apply, val_main_cst_9_apply]
  have hz : (FloatOps.ofBits (F := Ideal) .f32 0x00000000#32 : EReal) = 0 := Ideal.ofBits_zero_f32
  have hs : ∑ j : S16384.Idx, val_main_v41 (F := Ideal) x0 x1 x2 x3 j
      = ∑ r : Fin 16384, val_main_v41 (F := Ideal) x0 x1 x2 x3 (ix1 r) := sum_idx1 _
  rw [hz, zero_add, hs, Finset.sum_congr rfl fun r _ => rowval_eq x0 x1 x2 x3 r]
  rfl

end Cert.Contrast.RefRow

end
-- ==== Proof.lean ====
/-
  The kernel computes, per tile of 128 anchor rows, the supervised-contrastive loss of each row against all
  4864 contrast samples, and the program around it averages the 16384 row losses; the reference computes the
  same mean from the whole logits matrix. On the extended reals the two are one function of the arguments:

  * both programs normalise the anchors by the same host operations (one function `featOf`, never opened);
  * a row's logits are the inner products of its feature row with the contrast rows, scaled: the reference
    divides by the temperature's word (9395241/134217728), the kernel multiplies by the reciprocal it folded,
    which the statement names 134217728/9395241, and a quotient by a nonzero real is the product with its
    reciprocal;
  * a row's marks compare the row's label (the anchor label at `r mod 64`, by the view-major layout) with the
    contrast labels: the kernel through labels tiled before the call, the reference through a tiled mask;
  * the row maximum, the two sums and the mean are the same folds and sums, read off either side's reductions;
  * the kernel's 128 grid points write 128 rows each and tile the 16384 rows.
-/
import proofs.«145868_j65575560675708_1_alg».proof.Defs
import proofs.«145868_j65575560675708_1_alg».proof.Proof.Gen.Kernel
import proofs.«145868_j65575560675708_1_alg».proof.Proof.Gen.Kernel.Skeleton
import proofs.«145868_j65575560675708_1_alg».proof.Proof.Gen.Kernel.Launch
import proofs.«145868_j65575560675708_1_alg».proof.Proof.Gen.Kernel.Points
import proofs.«145868_j65575560675708_1_alg».proof.Proof.Gen.Kernel.Frame
import proofs.«145868_j65575560675708_1_alg».proof.Proof.Gen.KernelIdeal
import proofs.«145868_j65575560675708_1_alg».proof.Proof.Gen.KernelIdeal.Skeleton
import proofs.«145868_j65575560675708_1_alg».proof.Proof.Gen.KernelIdeal.Launch
import proofs.«145868_j65575560675708_1_alg».proof.Proof.Gen.KernelIdeal.Points
import proofs.«145868_j65575560675708_1_alg».proof.Proof.Gen.KernelIdeal.Frame
import proofs.«145868_j65575560675708_1_alg».proof.Proof.Gen.ReferenceIdeal
import proofs.«145868_j65575560675708_1_alg».proof.Proof.Gen.Pre_finite_inputs
import proofs.«145868_j65575560675708_1_alg».proof.Proof.Gen.ReferenceIdeal.Run
import proofs.«145868_j65575560675708_1_alg».proof.Proof.Gen.ReferenceIdeal.Read
import proofs.«145868_j65575560675708_1_alg».proof.Proof.KernelValue
import proofs.«145868_j65575560675708_1_alg».proof.Proof.RefRow
import Idealize.ShloMosaic.Adequacy
import Idealize.ShloMosaic.Init

noncomputable section

namespace Cert.Proof

open Idealize.ShloMosaic Idealize.ShloMosaic.TcCoe Idealize.SL.Sem Cert.Contrast

/-- Both programs normalise and lay out the anchors by the same operations: the kernel side's `featOf` is the
    reference's fifth stage. -/
theorem feat_eq (x : FVec Ideal Cert.KernelIdeal.S64x256x256 .f32) :
    KernelHost.featOf (F := Ideal) x = Cert.ReferenceIdeal.Read.val_main_v5 (F := Ideal) x := rfl

/-- The two results are one function of the arguments. -/
theorem result_eq (x0 : FVec Ideal Cert.KernelIdeal.S64x256x256 .f32) (x1 : IVec Cert.KernelIdeal.S64 32)
    (x2 : FVec Ideal Cert.KernelIdeal.S4864x256 .f32) (x3 : IVec Cert.KernelIdeal.S4864 32) :
    Cert.ReferenceIdeal.Read.val_main_v43 (F := Ideal) x0 x1 x2 x3 = fun _ => KernelValue.resultOf x0 x1 x2 x3 := by
  rw [RefRow.ref_value]
  unfold KernelValue.resultOf
  rw [feat_eq]

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: the folded reciprocal of the temperature is named 134217728/9395241. -/
theorem preserves : Cert.preserves_Kernel_KernelIdeal :=
  IdealRules.named_const.statement Cert.KernelIdeal.κ "inv_temperature" .f32 0x41649249#32
    ((134217728 / 9395241 : ℝ) : EReal) rfl

/-- From memories agreeing on the arguments both programs end with the mean row loss of those arguments. -/
theorem algebraic : Cert.algebraic_KernelIdeal_ReferenceIdeal := by
  intro m ρ m' ρ' _ hagree
  refine ⟨_, KernelValue.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, (hagree c).1, (hagree c).2.1, (hagree c).2.2.1, (hagree c).2.2.2]
  exact result_eq _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
